-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x1x1 : Shape := ⟨3, ![4, 1, 1]⟩
abbrev S1x4096x3 : Shape := ⟨3, ![1, 4096, 3]⟩
abbrev S1x3x4096 : Shape := ⟨3, ![1, 3, 4096]⟩
abbrev S1x1x1 : Shape := ⟨3, ![1, 1, 1]⟩
abbrev S4096x1 : Shape := ⟨2, ![4096, 1]⟩
abbrev S1x4096x1 : Shape := ⟨3, ![1, 4096, 1]⟩
abbrev S1x1x4096 : Shape := ⟨3, ![1, 1, 4096]⟩
abbrev S1x4096 : Shape := ⟨2, ![1, 4096]⟩
abbrev S4096x3 : Shape := ⟨2, ![4096, 3]⟩
abbrev S3x4096 : Shape := ⟨2, ![3, 4096]⟩
abbrev S4096x4096 : Shape := ⟨2, ![4096, 4096]⟩
abbrev S4096 : Shape := ⟨1, ![4096]⟩
abbrev S1 : Shape := ⟨1, ![1]⟩
abbrev S1x1 : Shape := ⟨2, ![1, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1, .f32⟩
  | .local _ .vmem, ⟨5, _⟩ => ⟨S1x1x1, .f32⟩
  | .local _ .vmem, ⟨6, _⟩ => ⟨S4096x1, .f32⟩
  | .local _ .vmem, ⟨7, _⟩ => ⟨S4096x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4x4096x3_S4x3x4096_0_2_1 : S4x4096x3.Transposes [0, 2, 1] S4x3x4096
  inb_S1x4096x3_S1x4096x1_0_0_0 : ∀ a, (![0, 0, 0] : Fin 3 → Nat) a + S1x4096x1.size a ≤ S1x4096x3.size a
  h_S1x4096x1 : 0 < S1x4096x1.numel
  shapeCasts_S1x4096x1_S4096x1 : S1x4096x1.ShapeCasts S4096x1
  inb_S1x4096x3_S1x4096x1_0_0_1 : ∀ a, (![0, 0, 1] : Fin 3 → Nat) a + S1x4096x1.size a ≤ S1x4096x3.size a
  inb_S1x4096x3_S1x4096x1_0_0_2 : ∀ a, (![0, 0, 2] : Fin 3 → Nat) a + S1x4096x1.size a ≤ S1x4096x3.size a
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x3x4096_S1x1x4096_0_0_0 : ∀ a, (![0, 0, 0] : Fin 3 → Nat) a + S1x1x4096.size a ≤ S1x3x4096.size a
  h_S1x1x4096 : 0 < S1x1x4096.numel
  shapeCasts_S1x1x4096_S1x4096 : S1x1x4096.ShapeCasts S1x4096
  inb_S1x3x4096_S1x1x4096_0_1_0 : ∀ a, (![0, 1, 0] : Fin 3 → Nat) a + S1x1x4096.size a ≤ S1x3x4096.size a
  inb_S1x3x4096_S1x1x4096_0_2_0 : ∀ a, (![0, 2, 0] : Fin 3 → Nat) a + S1x1x4096.size a ≤ S1x3x4096.size a
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  bitsLt_bf16_f32 : FTy.bits .bf16 < FTy.bits .f32
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  broadcasts_S4096x1_S4096x4096 : S4096x1.Broadcasts S4096x4096
  reduces_S4096x4096_S4096 : S4096x4096.Reduces [0] S4096
  shapeCasts_S4096_S1x4096 : S4096.ShapeCasts S1x4096
  shapeCasts_S1x4096_S1x1x4096 : S1x4096.ShapeCasts S1x1x4096
  reduces_S1x1x4096_S1 : S1x1x4096.Reduces [1, 2] S1
  shapeCasts_S1_S1x1x1 : S1.ShapeCasts S1x1x1
  inpos_S1x1x1_p0_0_0 : ∀ a, (![0, 0, 0] : Fin 3 → Nat) a < S1x1x1.size a
  broadcasts_S1x4096_S4096x4096 : S1x4096.Broadcasts S4096x4096
  reduces_S4096x4096_S4096_2 : S4096x4096.Reduces [1] S4096
  shapeCasts_S4096_S4096x1 : S4096.ShapeCasts S4096x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S4096x1_S1x4096x1 : S4096x1.ShapeCasts S1x4096x1
  reduces_S1x4096x1_S1 : S1x4096x1.Reduces [1, 2] S1
  reducesTo_S4x1x1_S_d0_1_2 : S4x1x1.ReducesTo [0, 1, 2] S_
  h_S_ : 0 < S_.numel
  dot_S4096x3_S3x4096_S4096x4096_1_0_0_1_n_n_wf : DotDims.WF S4096x3 S3x4096 S4096x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

def dot_S4096x3_S3x4096_S4096x4096_1_0_0_1_n_n : DotDims S4096x3 S3x4096 S4096x4096 where
  lhsContracting := [1]
  rhsContracting := [0]
  lhsNonContracting := [0]
  rhsNonContracting := [1]
  lhsBatch := []
  rhsBatch := []
  wf := dot_S4096x3_S3x4096_S4096x4096_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4 : Shape := ⟨1, ![4]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.BlockDef.lean ====
/-
  What one grid point leaves in the output block, as one term of the two input blocks: the body's stores composed
  through its read-backs (the squared lengths of the first block's rows are stored and read back, so are the row
  minima and the running total).
-/
import proofs.«143097_g31086973289139_cont_9to1_1619_17_alg».proof.Proof.Gen.KernelIdeal.Skeleton
import Idealize.ShloMosaic.Lib.Pipeline.Value

noncomputable section

namespace Cert.KernelIdeal.Block

open Idealize.ShloMosaic Idealize.SL.Sem Cert.KernelIdeal Cert.KernelIdeal.Gen

variable {F : FTy → Type} [FloatOps F]

/-- Column `d` of the first block (its rows' coordinate `d`), as the body loads it. -/
def predCol0 (x0 : Vec F S1x4096x3 .f32) : Vec F S1x4096x1 .f32 :=
  View.ld x0 (Rect.unit (s := S1x4096x3) ![0, 0, 0] S1x4096x1.size inb_S1x4096x3_S1x4096x1_0_0_0)
def predCol1 (x0 : Vec F S1x4096x3 .f32) : Vec F S1x4096x1 .f32 :=
  View.ld x0 (Rect.unit (s := S1x4096x3) ![0, 0, 1] S1x4096x1.size inb_S1x4096x3_S1x4096x1_0_0_1)
def predCol2 (x0 : Vec F S1x4096x3 .f32) : Vec F S1x4096x1 .f32 :=
  View.ld x0 (Rect.unit (s := S1x4096x3) ![0, 0, 2] S1x4096x1.size inb_S1x4096x3_S1x4096x1_0_0_2)

/-- Row `d` of the second block (its columns' coordinate `d`), as the body loads it. -/
def tgtRow0 (x1 : Vec F S1x3x4096 .f32) : Vec F S1x1x4096 .f32 :=
  View.ld x1 (Rect.unit (s := S1x3x4096) ![0, 0, 0] S1x1x4096.size inb_S1x3x4096_S1x1x4096_0_0_0)
def tgtRow1 (x1 : Vec F S1x3x4096 .f32) : Vec F S1x1x4096 .f32 :=
  View.ld x1 (Rect.unit (s := S1x3x4096) ![0, 1, 0] S1x1x4096.size inb_S1x3x4096_S1x1x4096_0_1_0)
def tgtRow2 (x1 : Vec F S1x3x4096 .f32) : Vec F S1x1x4096 .f32 :=
  View.ld x1 (Rect.unit (s := S1x3x4096) ![0, 2, 0] S1x1x4096.size inb_S1x3x4096_S1x1x4096_0_2_0)

/-- The squared lengths of the first block's rows, a column. -/
def predNorms (x0 : Vec F S1x4096x3 .f32) : FVec F S4096x1 .f32 := k0_pay7 (predCol0 x0) (predCol1 x0) (predCol2 x0)

/-- The backward sum stored over the zero the body first stores. -/
def afterBackward (x0 : Vec F S1x4096x3 .f32) (x1 : Vec F S1x3x4096 .f32) : FVec F S1x1x1 .f32 :=
  k0_pay5 (k0_pay10 (tgtRow0 x1) (tgtRow1 x1) (tgtRow2 x1) x0 x1 (predNorms x0)) (k0_pay2 (F := F))

/-- The row minima the body stores: the squared lengths of the second block's columns less the doubled products. -/
def rowMinima (x0 : Vec F S1x4096x3 .f32) (x1 : Vec F S1x3x4096 .f32) : FVec F S4096x1 .f32 :=
  k0_pay3 (k0_pay8 (tgtRow0 x1) (tgtRow1 x1) (tgtRow2 x1)) (k0_pay9 x0 x1)

/-- What the point leaves in the output block. -/
def blockOut (x0 : Vec F S1x4096x3 .f32) (x1 : Vec F S1x3x4096 .f32) : FVec F S1x1x1 .f32 :=
  k0_pay6 (predNorms x0) (rowMinima x0 x1) (afterBackward x0 x1)

end Cert.KernelIdeal.Block

end
-- ==== Proof.BlockRun.lean ====
/-
  The body's stores read back: what a grid point leaves in the output block is `Block.blockOut` of its two input
  blocks. The block is stored three times (zero; plus the backward sum; plus the forward sum), each store covering it, so
  the last one decides; each of its loads of a scratch column or of the block itself reads the store before it.
-/
import proofs.«143097_g31086973289139_cont_9to1_1619_17_alg».proof.Proof.Gen.KernelIdeal.Frame
import proofs.«143097_g31086973289139_cont_9to1_1619_17_alg».proof.Proof.BlockDef
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after stores of which the last wrote the whole buffer reads that store's value. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem out_eq (c : Dev nD) (i : grid0.Coords) (arg2 : Memref sig .tc .vmem S1x4096x3 .f32) (harg2 : arg2.IsWhole) (arg3 : Memref sig .tc .vmem S1x3x4096 .f32) (harg3 : arg3.IsWhole) (arg4 : Memref sig .tc .vmem S1x1x1 .f32) (harg4 : arg4.IsWhole) (arg5 : Memref sig .tc .vmem S4096x1 .f32) (harg5 : arg5.IsWhole) (arg6 : Memref sig .tc .vmem S4096x1 .f32) (harg6 : arg6.IsWhole) (hc0 : cond0_0 i) (hc1 : cond0_1 i) (hc2 : ¬cond0_2 i) (hc3 : cond0_3 i)
    (x0 : Vec F S1x4096x3 .f32) (x1 : Vec F S1x3x4096 .f32) :
    out0_A_2 c i arg2 harg2 arg3 harg3 arg4 harg4 arg5 harg5 arg6 harg6 hc0 hc1 hc2 hc3 x0 x1 = blockOut x0 x1 := by
  unfold out0_A_2
  rw [View.read_writes_eq_canon _ _ _ (cover0_A_2 c i arg2 harg2 arg3 harg3 arg4 harg4 arg5 harg5 arg6 harg6 hc0 hc1 hc2 hc3 x0 x1)]
  unfold kernelRun0_A
  dsimp only
  sl_unfold_words
  rw [View.canon_cons_unit_zero (S := S1x1x1) hz3]
  simp only [View.readAt_eq_ld, harg2.read_unread, harg3.read_unread, View.ld_unit_zero (S := S1x4096x3) hz3, View.ld_unit_zero (S := S1x3x4096) hz3,
    View.readCov_unit_zero (S := S4096x1) _ hz2, View.readCov_unit_zero (S := S1x1x1) _ hz3, readCov_cons_whole (S := S1x1x1) _ hz3]
  rfl

end Cert.KernelIdeal.Block

end
-- ==== Proof.ChamferLaw.lean ====
/-
  The Chamfer loss of one batch entry, written the two ways the two programs compute it, over the extended reals.

  For points p_n (n in ι) and t_m (m in κ) of three coordinates each, with
  d²(n, m) = |p_n|² + |t_m|² − 2 ⟨p_n, t_m⟩ and r(x) = √(max x ε):

    one way    Σ_m r(min_n (|p_n|² − ⟨2 p_n, t_m⟩) + |t_m|²)  +  Σ_n r(min_m (|t_m|² − ⟨2 p_n, t_m⟩) + |p_n|²)
    the other  Σ_n min_m r(d²(n, m))  +  Σ_m min_n r(d²(n, m)).

  They agree when every coordinate is a real number: r is monotone, so it commutes with a minimum; adding a real
  constant commutes with a minimum; and the two spellings of d² are one real number.
-/
import Idealize.ShloMosaic.PureOps.Ideal.Laws

noncomputable section

namespace Cert.Chamfer

open Idealize.ShloMosaic

/-- The squared length of a vector of three coordinates, its squares added left to right. -/
def normSq (v : Fin 3 → EReal) : EReal := v 0 * v 0 + v 1 * v 1 + v 2 * v 2

/-- Twice the inner product, the factor two carried by the first vector's coordinates. -/
def cross2 (u v : Fin 3 → EReal) : EReal := ∑ d : Fin 3, (u d * ((2 : ℝ) : EReal)) * v d

/-- Clamp from below at `ε`, then take the square root. -/
def clampRoot (ε x : EReal) : EReal := Ideal.sqrt (max x ε)

/-- The minimum of a finite family, starting from +∞. -/
def minOver {κ : Type} [Fintype κ] (g : κ → EReal) : EReal := (Finset.univ : Finset κ).fold min ⊤ g

variable {ι κ : Type} [Fintype ι] [Fintype κ]

/-- The loss with the rank-one terms folded outside the minima (the first way above). -/
def foldedLoss (ε : EReal) (p : ι → Fin 3 → EReal) (t : κ → Fin 3 → EReal) : EReal :=
  (0 + 1 * ∑ m : κ, clampRoot ε (minOver (fun n : ι => normSq (p n) - cross2 (p n) (t m)) + normSq (t m)))
    + 1 * ∑ n : ι, clampRoot ε (minOver (fun m : κ => normSq (t m) - cross2 (p n) (t m)) + normSq (p n))

/-- The distance between two points as the direct formula has it: the squares summed from zero, the inner product
    doubled afterwards. -/
def dist (ε : EReal) (u v : Fin 3 → EReal) : EReal :=
  clampRoot ε (((0 + ∑ d : Fin 3, u d * u d) + (0 + ∑ d : Fin 3, v d * v d)) - ((2 : ℝ) : EReal) * ∑ d : Fin 3, u d * v d)

/-- The loss as minima of distances (the other way above). -/
def directLoss (ε : EReal) (p : ι → Fin 3 → EReal) (t : κ → Fin 3 → EReal) : EReal :=
  1 * (0 + ∑ n : ι, minOver (fun m : κ => dist ε (p n) (t m))) + 1 * (0 + ∑ m : κ, minOver (fun n : ι => dist ε (p n) (t m)))

/-- The square root is monotone on the extended reals: negative reals and -∞ go to -∞, +∞ to +∞, and on the
    non-negative reals it is the real square root. -/
theorem sqrt_mono : Monotone Ideal.sqrt := by
  intro x y hxy
  induction x using EReal.rec with
  | bot => simp
  | top =>
    have hy : y = ⊤ := top_le_iff.mp hxy
    subst hy; exact le_rfl
  | coe a =>
    induction y using EReal.rec with
    | bot => exact absurd hxy (by simp)
    | top => simp
    | coe b =>
      have hab : a ≤ b := EReal.coe_le_coe_iff.mp hxy
      simp only [Ideal.sqrt_coe]
      split_ifs with ha hb
      · exact le_rfl
      · exact bot_le
      · exfalso; linarith
      · exact EReal.coe_le_coe_iff.mpr (Real.sqrt_le_sqrt hab)

/-- Clamping from below and then taking the root is monotone. -/
theorem clampRoot_mono (ε : EReal) : Monotone (clampRoot ε) := fun _ _ h =>
  sqrt_mono (max_le_max h le_rfl)

/-- It sends +∞ to +∞. -/
theorem clampRoot_top (ε : EReal) : clampRoot ε ⊤ = ⊤ := by
  unfold clampRoot
  rw [max_eq_left le_top, Ideal.sqrt_top]

/-- A monotone map that fixes +∞ commutes with the minimum of a finite family. -/
theorem minOver_map {κ : Type} [Fintype κ] (f : EReal → EReal) (hf : Monotone f) (htop : f ⊤ = ⊤)
    (g : κ → EReal) : minOver (fun k => f (g k)) = f (minOver g) := by
  unfold minOver
  have h := Finset.fold_hom (op := min) (op' := min) (m := f) (s := (Finset.univ : Finset κ)) (f := g)
    (b := ⊤) (fun x y => hf.map_min)
  rw [htop] at h
  exact h

/-- Adding a real constant and then clamping and taking the root commutes with the minimum: both steps are
    monotone and fix +∞. -/
theorem clampRoot_minOver_add {κ : Type} [Fintype κ] (ε : EReal) (g : κ → EReal) (c : ℝ) :
    clampRoot ε (minOver g + (c : EReal)) = minOver (fun k => clampRoot ε (g k + (c : EReal))) := by
  have hf : Monotone (fun x : EReal => clampRoot ε (x + (c : EReal))) := fun _ _ h =>
    clampRoot_mono ε (add_le_add h le_rfl)
  have htop : (fun x : EReal => clampRoot ε (x + (c : EReal))) ⊤ = ⊤ := by
    show clampRoot ε (⊤ + (c : EReal)) = ⊤
    rw [EReal.top_add_coe, clampRoot_top]
  exact (minOver_map _ hf htop g).symm

/-- The squared length of a real vector is a real number. -/
theorem normSq_coe (v : Fin 3 → ℝ) :
    normSq (fun d => (v d : EReal)) = ((v 0 * v 0 + v 1 * v 1 + v 2 * v 2 : ℝ) : EReal) := by
  unfold normSq
  norm_cast

/-- |u|² − ⟨2u, v⟩ + |v|² and (|u|² + |v|²) − 2⟨u, v⟩ are one real number. -/
theorem sqDist_left (u v : Fin 3 → ℝ) :
    (normSq (fun d => (u d : EReal)) - cross2 (fun d => (u d : EReal)) (fun d => (v d : EReal)))
        + normSq (fun d => (v d : EReal))
      = ((0 + ∑ d : Fin 3, (u d : EReal) * (u d : EReal)) + (0 + ∑ d : Fin 3, (v d : EReal) * (v d : EReal)))
          - ((2 : ℝ) : EReal) * ∑ d : Fin 3, (u d : EReal) * (v d : EReal) := by
  simp only [normSq, cross2, Fin.sum_univ_three, zero_add]
  norm_cast
  ring

/-- The same with the two squared lengths in the other order: |v|² − ⟨2u, v⟩ + |u|². -/
theorem sqDist_right (u v : Fin 3 → ℝ) :
    (normSq (fun d => (v d : EReal)) - cross2 (fun d => (u d : EReal)) (fun d => (v d : EReal)))
        + normSq (fun d => (u d : EReal))
      = ((0 + ∑ d : Fin 3, (u d : EReal) * (u d : EReal)) + (0 + ∑ d : Fin 3, (v d : EReal) * (v d : EReal)))
          - ((2 : ℝ) : EReal) * ∑ d : Fin 3, (u d : EReal) * (v d : EReal) := by
  simp only [normSq, cross2, Fin.sum_univ_three, zero_add]
  norm_cast
  ring

/-- On real coordinates the two ways agree. -/
theorem foldedLoss_eq_directLoss (ε : EReal) (p : ι → Fin 3 → EReal) (t : κ → Fin 3 → EReal)
    (hp : ∀ n d, ∃ r : ℝ, p n d = (r : EReal)) (ht : ∀ m d, ∃ r : ℝ, t m d = (r : EReal)) :
    foldedLoss ε p t = directLoss ε p t := by
  choose p' hp' using hp
  choose t' ht' using ht
  obtain rfl : p = fun n d => ((p' n d : ℝ) : EReal) := funext fun n => funext fun d => hp' n d
  obtain rfl : t = fun m d => ((t' m d : ℝ) : EReal) := funext fun m => funext fun d => ht' m d
  unfold foldedLoss directLoss
  simp only [zero_add, one_mul]
  rw [add_comm]
  congr 1
  · -- each point of the first cloud: the constant |p_n|² goes inside the minimum over m, then the root does
    refine Finset.sum_congr rfl fun n _ => ?_
    show clampRoot ε (minOver (fun m : κ => normSq (fun d => ((t' m d : ℝ) : EReal))
        - cross2 (fun d => ((p' n d : ℝ) : EReal)) (fun d => ((t' m d : ℝ) : EReal)))
          + normSq (fun d => ((p' n d : ℝ) : EReal)))
      = minOver (fun m : κ => dist ε (fun d => ((p' n d : ℝ) : EReal)) (fun d => ((t' m d : ℝ) : EReal)))
    rw [normSq_coe (p' n), clampRoot_minOver_add]
    congr 1
    funext m
    rw [← normSq_coe (p' n), sqDist_right (p' n) (t' m)]
    rfl
  · -- each point of the second cloud: the same with |t_m|² and the minimum over n
    refine Finset.sum_congr rfl fun m _ => ?_
    show clampRoot ε (minOver (fun n : ι => normSq (fun d => ((p' n d : ℝ) : EReal))
        - cross2 (fun d => ((p' n d : ℝ) : EReal)) (fun d => ((t' m d : ℝ) : EReal)))
          + normSq (fun d => ((t' m d : ℝ) : EReal)))
      = minOver (fun n : ι => dist ε (fun d => ((p' n d : ℝ) : EReal)) (fun d => ((t' m d : ℝ) : EReal)))
    rw [normSq_coe (t' m), clampRoot_minOver_add]
    congr 1
    funext n
    rw [← normSq_coe (t' m), sqDist_left (p' n) (t' m)]
    rfl

end Cert.Chamfer

end
-- ==== Proof.BlockReads.lean ====
/-
  The three elementary reads of a grid point's blocks at the ideal values: the squared length of a row of the first
  block, the squared length of a column of the second, and the doubled inner product of a row with a column.
-/
import proofs.«143097_g31086973289139_cont_9to1_1619_17_alg».proof.Proof.BlockDef
import proofs.«143097_g31086973289139_cont_9to1_1619_17_alg».proof.Proof.ChamferLaw
import Idealize.ShloMosaic.Lib.ValueIdx
import Idealize.ShloMosaic.Lib.ValueLayout
import Idealize.ShloMosaic.PureOps.Ideal.Laws

noncomputable section

namespace Cert.KernelIdeal.Block

open Idealize.ShloMosaic Idealize.SL.Sem Cert.KernelIdeal Cert.KernelIdeal.Gen

/-! ## The loads of one coordinate, read at an index -/

/-- The load of coordinate 0 of the first block's rows reads, at row `n`, the block at `(0, n, 0)`. -/
theorem predCol0_apply (x0 : Vec Ideal S1x4096x3 .f32) (n : Fin 4096) :
    predCol0 x0 (ValueIdx.ix3 (0 : Fin 1) n (0 : Fin 1)) = x0 (ValueIdx.ix3 (0 : Fin 1) n (0 : Fin 3)) := by
  show x0 _ = x0 _
  refine congrArg x0 (funext fun a => Fin.ext ?_)
  match a with
  | ⟨0, _⟩ => rfl
  | ⟨1, _⟩ => show 0 + 1 * n.val = n.val; omega
  | ⟨2, _⟩ => rfl

/-- The load of coordinate 1 of the first block's rows reads, at row `n`, the block at `(0, n, 1)`. -/
theorem predCol1_apply (x0 : Vec Ideal S1x4096x3 .f32) (n : Fin 4096) :
    predCol1 x0 (ValueIdx.ix3 (0 : Fin 1) n (0 : Fin 1)) = x0 (ValueIdx.ix3 (0 : Fin 1) n (1 : Fin 3)) := by
  show x0 _ = x0 _
  refine congrArg x0 (funext fun a => Fin.ext ?_)
  match a with
  | ⟨0, _⟩ => rfl
  | ⟨1, _⟩ => show 0 + 1 * n.val = n.val; omega
  | ⟨2, _⟩ => rfl

/-- The load of coordinate 2 of the first block's rows reads, at row `n`, the block at `(0, n, 2)`. -/
theorem predCol2_apply (x0 : Vec Ideal S1x4096x3 .f32) (n : Fin 4096) :
    predCol2 x0 (ValueIdx.ix3 (0 : Fin 1) n (0 : Fin 1)) = x0 (ValueIdx.ix3 (0 : Fin 1) n (2 : Fin 3)) := by
  show x0 _ = x0 _
  refine congrArg x0 (funext fun a => Fin.ext ?_)
  match a with
  | ⟨0, _⟩ => rfl
  | ⟨1, _⟩ => show 0 + 1 * n.val = n.val; omega
  | ⟨2, _⟩ => rfl

/-- The load of coordinate 0 of the second block's columns reads, at column `m`, the block at `(0, 0, m)`. -/
theorem tgtRow0_apply (x1 : Vec Ideal S1x3x4096 .f32) (m : Fin 4096) :
    tgtRow0 x1 (ValueIdx.ix3 (0 : Fin 1) (0 : Fin 1) m) = x1 (ValueIdx.ix3 (0 : Fin 1) (0 : Fin 3) m) := by
  show x1 _ = x1 _
  refine congrArg x1 (funext fun a => Fin.ext ?_)
  match a with
  | ⟨0, _⟩ => rfl
  | ⟨1, _⟩ => rfl
  | ⟨2, _⟩ => show 0 + 1 * m.val = m.val; omega

/-- The load of coordinate 1 of the second block's columns reads, at column `m`, the block at `(0, 1, m)`. -/
theorem tgtRow1_apply (x1 : Vec Ideal S1x3x4096 .f32) (m : Fin 4096) :
    tgtRow1 x1 (ValueIdx.ix3 (0 : Fin 1) (0 : Fin 1) m) = x1 (ValueIdx.ix3 (0 : Fin 1) (1 : Fin 3) m) := by
  show x1 _ = x1 _
  refine congrArg x1 (funext fun a => Fin.ext ?_)
  match a with
  | ⟨0, _⟩ => rfl
  | ⟨1, _⟩ => rfl
  | ⟨2, _⟩ => show 0 + 1 * m.val = m.val; omega

/-- The load of coordinate 2 of the second block's columns reads, at column `m`, the block at `(0, 2, m)`. -/
theorem tgtRow2_apply (x1 : Vec Ideal S1x3x4096 .f32) (m : Fin 4096) :
    tgtRow2 x1 (ValueIdx.ix3 (0 : Fin 1) (0 : Fin 1) m) = x1 (ValueIdx.ix3 (0 : Fin 1) (2 : Fin 3) m) := by
  show x1 _ = x1 _
  refine congrArg x1 (funext fun a => Fin.ext ?_)
  match a with
  | ⟨0, _⟩ => rfl
  | ⟨1, _⟩ => rfl
  | ⟨2, _⟩ => show 0 + 1 * m.val = m.val; omega

/-- Row `n` of the stored column of squared lengths is the squared length of row `n` of the first block. -/
theorem predNorms_apply (x0 : Vec Ideal S1x4096x3 .f32) (n : Fin 4096) :
    predNorms (F := Ideal) x0 (ValueIdx.ix2 n (0 : Fin 1))
      = Cert.Chamfer.normSq (fun d : Fin 3 => x0 (ValueIdx.ix3 (0 : Fin 1) n d)) := by
  have e0 := (ValueIdx.shapeCast_1ab_ab_apply (predCol0 x0) shapeCasts_S1x4096x1_S4096x1 n (0 : Fin 1)).trans
    (predCol0_apply x0 n)
  have e1 := (ValueIdx.shapeCast_1ab_ab_apply (predCol1 x0) shapeCasts_S1x4096x1_S4096x1 n (0 : Fin 1)).trans
    (predCol1_apply x0 n)
  have e2 := (ValueIdx.shapeCast_1ab_ab_apply (predCol2 x0) shapeCasts_S1x4096x1_S4096x1 n (0 : Fin 1)).trans
    (predCol2_apply x0 n)
  unfold predNorms k0_pay7
  refine (congrFun (shapeCast_self _ shapeCasts_S4096x1_S4096x1) _).trans ?_
  show shapeCast S4096x1 (predCol0 x0) shapeCasts_S1x4096x1_S4096x1 (ValueIdx.ix2 n (0 : Fin 1))
        * shapeCast S4096x1 (predCol0 x0) shapeCasts_S1x4096x1_S4096x1 (ValueIdx.ix2 n (0 : Fin 1))
      + shapeCast S4096x1 (predCol1 x0) shapeCasts_S1x4096x1_S4096x1 (ValueIdx.ix2 n (0 : Fin 1))
        * shapeCast S4096x1 (predCol1 x0) shapeCasts_S1x4096x1_S4096x1 (ValueIdx.ix2 n (0 : Fin 1))
      + shapeCast S4096x1 (predCol2 x0) shapeCasts_S1x4096x1_S4096x1 (ValueIdx.ix2 n (0 : Fin 1))
        * shapeCast S4096x1 (predCol2 x0) shapeCasts_S1x4096x1_S4096x1 (ValueIdx.ix2 n (0 : Fin 1)) = _
  rw [e0, e1, e2]
  rfl

/-- Entry `m` of the row of squared lengths is the squared length of column `m` of the second block. -/
theorem tgtNorms_apply (x1 : Vec Ideal S1x3x4096 .f32) (m : Fin 4096) :
    k0_pay8 (F := Ideal) (tgtRow0 x1) (tgtRow1 x1) (tgtRow2 x1) (ValueIdx.ix2 (0 : Fin 1) m)
      = Cert.Chamfer.normSq (fun d : Fin 3 => x1 (ValueIdx.ix3 (0 : Fin 1) d m)) := by
  have e0 := (ValueIdx.shapeCast_1ab_ab_apply (tgtRow0 x1) shapeCasts_S1x1x4096_S1x4096 (0 : Fin 1) m).trans
    (tgtRow0_apply x1 m)
  have e1 := (ValueIdx.shapeCast_1ab_ab_apply (tgtRow1 x1) shapeCasts_S1x1x4096_S1x4096 (0 : Fin 1) m).trans
    (tgtRow1_apply x1 m)
  have e2 := (ValueIdx.shapeCast_1ab_ab_apply (tgtRow2 x1) shapeCasts_S1x1x4096_S1x4096 (0 : Fin 1) m).trans
    (tgtRow2_apply x1 m)
  unfold k0_pay8
  show shapeCast S1x4096 (tgtRow0 x1) shapeCasts_S1x1x4096_S1x4096 (ValueIdx.ix2 (0 : Fin 1) m)
        * shapeCast S1x4096 (tgtRow0 x1) shapeCasts_S1x1x4096_S1x4096 (ValueIdx.ix2 (0 : Fin 1) m)
      + shapeCast S1x4096 (tgtRow1 x1) shapeCasts_S1x1x4096_S1x4096 (ValueIdx.ix2 (0 : Fin 1) m)
        * shapeCast S1x4096 (tgtRow1 x1) shapeCasts_S1x1x4096_S1x4096 (ValueIdx.ix2 (0 : Fin 1) m)
      + shapeCast S1x4096 (tgtRow2 x1) shapeCasts_S1x1x4096_S1x4096 (ValueIdx.ix2 (0 : Fin 1) m)
        * shapeCast S1x4096 (tgtRow2 x1) shapeCasts_S1x1x4096_S1x4096 (ValueIdx.ix2 (0 : Fin 1) m) = _
  rw [e0, e1, e2]
  rfl

/-! ## The matrix product read at an index -/

/-- The bf16 pattern the body scales the first block's rows by denotes the real number two. -/
theorem ofBits_bf16_two : Ideal.ofBits .bf16 0x4000#16 = ((2 : ℝ) : EReal) := by
  simp [Ideal.ofBits, Ideal.ieee, -EReal.coe_mul]; norm_num

/-- The left operand's row is the output's row. -/
theorem lhs_cross_0 (i : S4096x4096.Idx) (q : dot_S4096x3_S3x4096_S4096x4096_1_0_0_1_n_n.contr.Idx) :
    (dot_S4096x3_S3x4096_S4096x4096_1_0_0_1_n_n.lhsIdx i q 0).val = (i 0).val := by
  unfold DotDims.lhsIdx
  rw [dif_neg (show ¬(0 : Fin S4096x3.rank) ∈ dot_S4096x3_S3x4096_S4096x4096_1_0_0_1_n_n.lhsBatch by decide), dif_pos (show (0 : Fin S4096x3.rank) ∈ dot_S4096x3_S3x4096_S4096x4096_1_0_0_1_n_n.lhsNonContracting by decide)]
  rfl
/-- The left operand's column is the contracted coordinate. -/
theorem lhs_cross_1 (i : S4096x4096.Idx) (q : dot_S4096x3_S3x4096_S4096x4096_1_0_0_1_n_n.contr.Idx) :
    (dot_S4096x3_S3x4096_S4096x4096_1_0_0_1_n_n.lhsIdx i q 1).val = (q ⟨0, by decide⟩).val :=
  dot_S4096x3_S3x4096_S4096x4096_1_0_0_1_n_n.lhsIdx_val_of_single rfl i q
/-- The right operand's row is the contracted coordinate. -/
theorem rhs_cross_0 (i : S4096x4096.Idx) (q : dot_S4096x3_S3x4096_S4096x4096_1_0_0_1_n_n.contr.Idx) :
    (dot_S4096x3_S3x4096_S4096x4096_1_0_0_1_n_n.rhsIdx i q 0).val = (q ⟨0, by decide⟩).val :=
  dot_S4096x3_S3x4096_S4096x4096_1_0_0_1_n_n.rhsIdx_val_of_single rfl i q
/-- The right operand's column is the output's column. -/
theorem rhs_cross_1 (i : S4096x4096.Idx) (q : dot_S4096x3_S3x4096_S4096x4096_1_0_0_1_n_n.contr.Idx) :
    (dot_S4096x3_S3x4096_S4096x4096_1_0_0_1_n_n.rhsIdx i q 1).val = (i 1).val := by
  unfold DotDims.rhsIdx
  rw [dif_neg (show ¬(1 : Fin S3x4096.rank) ∈ dot_S4096x3_S3x4096_S4096x4096_1_0_0_1_n_n.rhsBatch by decide), dif_pos (show (1 : Fin S3x4096.rank) ∈ dot_S4096x3_S3x4096_S4096x4096_1_0_0_1_n_n.rhsNonContracting by decide)]
  rfl

/-- Entry (n, m) of the matrix product is the doubled inner product of row `n` of the first block with column `m`
    of the second. -/
theorem cross_apply (x0 : Vec Ideal S1x4096x3 .f32) (x1 : Vec Ideal S1x3x4096 .f32) (n m : Fin 4096) :
    k0_pay9 (F := Ideal) x0 x1 (ValueIdx.ix2 n m)
      = Cert.Chamfer.cross2 (fun d : Fin 3 => x0 (ValueIdx.ix3 (0 : Fin 1) n d)) (fun d : Fin 3 => x1 (ValueIdx.ix3 (0 : Fin 1) d m)) := by
  unfold k0_pay9
  refine (Ideal.matmul_constant_zero_apply dot_S4096x3_S3x4096_S4096x4096_1_0_0_1_n_n none _ _ (ValueIdx.ix2 n m)).trans ?_
  rw [← Equiv.sum_comp (ValueIdx.contrEquiv1 dot_S4096x3_S3x4096_S4096x4096_1_0_0_1_n_n 3 rfl rfl).symm]
  unfold Cert.Chamfer.cross2
  refine Finset.sum_congr rfl fun k _ => ?_
  have hk := ValueIdx.contrEquiv1_symm_val dot_S4096x3_S3x4096_S4096x4096_1_0_0_1_n_n 3 rfl rfl k
  have el : dot_S4096x3_S3x4096_S4096x4096_1_0_0_1_n_n.lhsIdx (ValueIdx.ix2 n m) ((ValueIdx.contrEquiv1 dot_S4096x3_S3x4096_S4096x4096_1_0_0_1_n_n 3 rfl rfl).symm k) = ValueIdx.ix2 n k := funext fun a => Fin.ext (by
    match a with
    | ⟨0, _⟩ => exact lhs_cross_0 _ _
    | ⟨1, _⟩ => exact (lhs_cross_1 _ _).trans hk)
  have er : dot_S4096x3_S3x4096_S4096x4096_1_0_0_1_n_n.rhsIdx (ValueIdx.ix2 n m) ((ValueIdx.contrEquiv1 dot_S4096x3_S3x4096_S4096x4096_1_0_0_1_n_n 3 rfl rfl).symm k) = ValueIdx.ix2 k m := funext fun a => Fin.ext (by
    match a with
    | ⟨0, _⟩ => exact (rhs_cross_0 _ _).trans hk
    | ⟨1, _⟩ => exact rhs_cross_1 _ _)
  rw [el, er]
  show shapeCast S4096x3 x0 shapeCasts_S1x4096x3_S4096x3 (ValueIdx.ix2 n k) * Ideal.ofBits .bf16 0x4000#16
        * shapeCast S3x4096 x1 shapeCasts_S1x3x4096_S3x4096 (ValueIdx.ix2 k m)
      = x0 (ValueIdx.ix3 (0 : Fin 1) n k) * ((2 : ℝ) : EReal) * x1 (ValueIdx.ix3 (0 : Fin 1) k m)
  rw [ValueIdx.shapeCast_1ab_ab_apply x0 shapeCasts_S1x4096x3_S4096x3 n k,
    ValueIdx.shapeCast_1ab_ab_apply x1 shapeCasts_S1x3x4096_S3x4096 k m, ofBits_bf16_two]

end Cert.KernelIdeal.Block

end
-- ==== Proof.BlockIdeal.lean ====
/-
  The output block of one grid point read at the ideal values: the folded Chamfer loss of the block's points.
-/
import proofs.«143097_g31086973289139_cont_9to1_1619_17_alg».proof.Proof.BlockDef
import proofs.«143097_g31086973289139_cont_9to1_1619_17_alg».proof.Proof.BlockReads
import proofs.«143097_g31086973289139_cont_9to1_1619_17_alg».proof.Proof.ChamferLaw
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Block

open Idealize.ShloMosaic Idealize.SL.Sem Cert.KernelIdeal Cert.KernelIdeal.Gen
open Idealize.ShloMosaic.ValueIdx

/-! ## Layout operations at an index: the column forms -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A minimum over one axis of a matrix -/

/-- At the ideal values a minimum reduction over one axis is, at each reduced index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The pattern of +∞ is the top of the extended reals. -/
theorem ofBits_inf_f32 : Ideal.ofBits .f32 0x7F800000#32 = ⊤ := by simp [Ideal.ofBits, Ideal.ieee]

/-- Row `r` of a matrix with column `k` put back is `(r, k)`. -/
theorem lift_axis1 {n0 n1 : ℕ} (h : (⟨2, ![n0, n1]⟩ : Shape).Reduces [1] (⟨1, ![n0]⟩ : Shape)) (r : Fin n0)
    (k : Fin ((⟨2, ![n0, n1]⟩ : Shape).size 1)) : h.lift (ix1 r) k = ix2 r (⟨k.val, k.isLt⟩ : Fin n1) := by
  funext c; apply Fin.ext
  fin_cases c <;> rfl

/-- Column `c` of a matrix with row `k` put back is `(k, c)`. -/
theorem lift_axis0 {n0 n1 : ℕ} (h : (⟨2, ![n0, n1]⟩ : Shape).Reduces [0] (⟨1, ![n1]⟩ : Shape)) (c : Fin n1)
    (k : Fin ((⟨2, ![n0, n1]⟩ : Shape).size 0)) : h.lift (ix1 c) k = ix2 (⟨k.val, k.isLt⟩ : Fin n0) c := by
  funext d; apply Fin.ext
  fin_cases d <;> rfl

/-- The minimum over the columns, from +∞, read at row `r`. -/
theorem rowMin_apply {n0 n1 : ℕ} (src : FVec Ideal ⟨2, ![n0, n1]⟩ .f32)
    (h : (⟨2, ![n0, n1]⟩ : Shape).Reduces [1] (⟨1, ![n0]⟩ : Shape)) (hφ : FKind.Formats .f32)
    (hacc : (0x7F800000#32 : BitVec 32) = FKind.minimumf.neutral .f32 hφ) (r : Fin n0) :
    multiReduction .minimumf [1] (⟨1, ![n0]⟩ : Shape) src 0x7F800000#32 h hφ hacc (ix1 r)
      = Cert.Chamfer.minOver (fun k : Fin n1 => src (ix2 r k)) := by
  refine (multiReduction_minimumf_single src _ h hφ hacc (ix1 r)).trans ?_
  have hf : (src ∘ h.lift (ix1 r)) = fun k : Fin n1 => src (ix2 r k) := funext fun k => congrArg src (lift_axis1 h r k)
  show (Finset.univ : Finset (Fin n1)).fold min (Ideal.ofBits .f32 0x7F800000#32) (src ∘ h.lift (ix1 r)) = _
  rw [hf, ofBits_inf_f32]
  rfl

/-- The minimum over the rows, from +∞, read at column `c`. -/
theorem colMin_apply {n0 n1 : ℕ} (src : FVec Ideal ⟨2, ![n0, n1]⟩ .f32)
    (h : (⟨2, ![n0, n1]⟩ : Shape).Reduces [0] (⟨1, ![n1]⟩ : Shape)) (hφ : FKind.Formats .f32)
    (hacc : (0x7F800000#32 : BitVec 32) = FKind.minimumf.neutral .f32 hφ) (c : Fin n1) :
    multiReduction .minimumf [0] (⟨1, ![n1]⟩ : Shape) src 0x7F800000#32 h hφ hacc (ix1 c)
      = Cert.Chamfer.minOver (fun k : Fin n0 => src (ix2 k c)) := by
  refine (multiReduction_minimumf_single src _ h hφ hacc (ix1 c)).trans ?_
  have hf : (src ∘ h.lift (ix1 c)) = fun k : Fin n0 => src (ix2 k c) := funext fun k => congrArg src (lift_axis0 h c k)
  show (Finset.univ : Finset (Fin n0)).fold min (Ideal.ofBits .f32 0x7F800000#32) (src ∘ h.lift (ix1 c)) = _
  rw [hf, ofBits_inf_f32]
  rfl

/-! ## The two families of minima -/

/-- Row `n` of the stored row minima: the minimum over the second block's columns of the column's squared length less
    the doubled product with row `n`. -/
theorem rowMinima_apply (x0 : Vec Ideal S1x4096x3 .f32) (x1 : Vec Ideal S1x3x4096 .f32) (n : Fin 4096) :
    rowMinima (F := Ideal) x0 x1 (ix2 n (0 : Fin 1))
      = Cert.Chamfer.minOver (fun m : Fin 4096 =>
          Cert.Chamfer.normSq (fun d : Fin 3 => x1 (ix3 (0 : Fin 1) d m))
            - Cert.Chamfer.cross2 (fun d : Fin 3 => x0 (ix3 (0 : Fin 1) n d)) (fun d : Fin 3 => x1 (ix3 (0 : Fin 1) d m))) := by
  unfold rowMinima k0_pay3 k0_pay1
  rw [shapeCast_self]
  refine (shapeCast_a_a1_apply _ _ n (0 : Fin 1)).trans ?_
  refine (rowMin_apply _ _ _ _ n).trans ?_
  refine congrArg Cert.Chamfer.minOver (funext fun m => ?_)
  rw [subf_apply, broadcastTo_1b_ab_apply, tgtNorms_apply, cross_apply]

/-- A root taken elementwise reads the root of the element. -/
theorem sqrt_apply {s : Shape} {φ : FTy} (a : FVec Ideal s φ) (i : s.Idx) : sqrt a i = Ideal.sqrt (a i) := rfl

/-- Entry `m` of the backward row: the clamped root of the minimum over the first block's rows of the row's squared
    length less the doubled product with column `m`, the column's squared length added back. -/
theorem backward_apply (x0 : Vec Ideal S1x4096x3 .f32) (x1 : Vec Ideal S1x3x4096 .f32) (u v : Fin 1) (m : Fin 4096) :
    k0_pay10 (F := Ideal) (tgtRow0 x1) (tgtRow1 x1) (tgtRow2 x1) x0 x1 (predNorms x0) (ix3 u v m)
      = Cert.Chamfer.clampRoot (Ideal.ofBits .f32 0x2B8CBCCC#32)
          (Cert.Chamfer.minOver (fun n : Fin 4096 =>
              Cert.Chamfer.normSq (fun d : Fin 3 => x0 (ix3 (0 : Fin 1) n d))
                - Cert.Chamfer.cross2 (fun d : Fin 3 => x0 (ix3 (0 : Fin 1) n d)) (fun d : Fin 3 => x1 (ix3 (0 : Fin 1) d m)))
            + Cert.Chamfer.normSq (fun d : Fin 3 => x1 (ix3 (0 : Fin 1) d m))) := by
  unfold k0_pay10
  refine (shapeCast_ab_1ab_apply _ _ u v m).trans ?_
  obtain rfl : v = 0 := Subsingleton.elim _ _
  rw [sqrt_apply, maximumf_apply, addf_apply, broadcast_apply, tgtNorms_apply, shapeCast_a_1a_apply]
  refine (congrArg (fun z : EReal => Ideal.sqrt (max (z + Cert.Chamfer.normSq (fun d : Fin 3 => x1 (ix3 (0 : Fin 1) d m)))
    (Ideal.ofBits .f32 0x2B8CBCCC#32))) (colMin_apply _ _ _ _ m)).trans ?_
  unfold Cert.Chamfer.clampRoot
  refine congrArg (fun z => Ideal.sqrt (max (Cert.Chamfer.minOver z + _) _)) (funext fun n => ?_)
  rw [subf_apply, broadcastTo_a1_ab_apply, predNorms_apply, cross_apply]

/-! ## The total sums -/

/-- Every index of the one-element block is the same one. -/
theorem idx111_eq (y : S1x1x1.Idx) : y = ix3 (0 : Fin 1) (0 : Fin 1) (0 : Fin 1) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- So any two of them are equal. -/
theorem idx111_subsingleton (y y' : S1x1x1.Idx) : y = y' := (idx111_eq y).trans (idx111_eq y').symm

/-- The indices of a `[1, 1, n]` array are its last coordinates. -/
def idxEquiv_11n (n : ℕ) : Fin n ≃ (⟨3, ![1, 1, n]⟩ : Shape).Idx where
  toFun m := ix3 (0 : Fin 1) (0 : Fin 1) m
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

/-- The indices of a `[1, n, 1]` array are its middle coordinates. -/
def idxEquiv_1n1 (n : ℕ) : Fin n ≃ (⟨3, ![1, n, 1]⟩ : Shape).Idx where
  toFun m := ix3 (0 : Fin 1) m (0 : Fin 1)
  invFun i := i 1
  left_inv _ := rfl
  right_inv i := by
    funext a
    match a with
    | ⟨0, _⟩ => exact Subsingleton.elim (α := Fin 1) _ _
    | ⟨1, _⟩ => rfl
    | ⟨2, _⟩ => exact Subsingleton.elim (α := Fin 1) _ _

/-- A sum over a `[1, 1, n]` array is the sum over its last coordinate. -/
theorem sum_idx_11n {M : Type} [AddCommMonoid M] {n : ℕ} (f : (⟨3, ![1, 1, n]⟩ : Shape).Idx → M) :
    ∑ i, f i = ∑ m : Fin n, f (ix3 (0 : Fin 1) (0 : Fin 1) m) :=
  (Equiv.sum_comp (idxEquiv_11n n) f).symm

/-- A sum over a `[1, n, 1]` array is the sum over its middle coordinate. -/
theorem sum_idx_1n1 {M : Type} [AddCommMonoid M] {n : ℕ} (f : (⟨3, ![1, n, 1]⟩ : Shape).Idx → M) :
    ∑ i, f i = ∑ m : Fin n, f (ix3 (0 : Fin 1) m (0 : Fin 1)) :=
  (Equiv.sum_comp (idxEquiv_1n1 n) f).symm

section Unfold
variable {α : Type} {s t : Shape}

/-- A shape cast at an index reads the operand at the matched index. -/
theorem shapeCast_idx (x : s.Idx → α) (h : s.ShapeCasts t) (j : t.Idx) : shapeCast t x h j = x (Shape.reshapeEquiv h j) := rfl

/-- An extraction at a position reads the operand there. -/
theorem extractAt_eq (pos : Fin s.rank → ℕ) (x : s.Idx → α) (h : ∀ a, pos a < s.size a) :
    extractAt pos x h = x (fun a => ⟨pos a, h a⟩) := rfl

end Unfold

/-- The stored zero block reads zero. -/
theorem k0_pay2_apply (y : S1x1x1.Idx) : k0_pay2 (F := Ideal) y = 0 :=
  Ideal.ofBits_zero_f32

/-- The sum of a `[1, 1, 4096]` row over its two last axes is the sum of its entries. -/
theorem sumRow_apply (v32 : FVec Ideal S1x1x4096 .f32) (j : S1.Idx) :
    multiReduction (F := Ideal) .add [1, 2] S1 v32 0x00000000#32 reduces_S1x1x4096_S1 (.inl rfl) rfl j
      = ∑ m : Fin 4096, v32 (ix3 (0 : Fin 1) (0 : Fin 1) m) :=
  (Ideal.multiReduction_add_total v32 _ _ (by decide) _ _ j).trans (sum_idx_11n v32)

/-- The sum of a `[1, 4096, 1]` column over its two last axes is the sum of its entries. -/
theorem sumCol_apply (v65 : FVec Ideal S1x4096x1 .f32) (j : S1.Idx) :
    multiReduction (F := Ideal) .add [1, 2] S1 v65 0x00000000#32 reduces_S1x4096x1_S1 (.inl rfl) rfl j
      = ∑ n : Fin 4096, v65 (ix3 (0 : Fin 1) n (0 : Fin 1)) :=
  (Ideal.multiReduction_add_total v65 _ _ (by decide) _ _ j).trans (sum_idx_1n1 v65)

/-- The backward store: the block read before it plus once the sum of the row. -/
theorem k0_pay5_apply (v32 : FVec Ideal S1x1x4096 .f32) (v47 : Vec Ideal S1x1x1 .f32) (y : S1x1x1.Idx) :
    k0_pay5 (F := Ideal) v32 v47 y = v47 y + 1 * ∑ m : Fin 4096, v32 (ix3 (0 : Fin 1) (0 : Fin 1) m) := by
  unfold k0_pay5
  rw [shapeCast_idx, addf_apply, mulf_apply, broadcast_apply, broadcast_apply, shapeCast_idx, extractAt_eq, shapeCast_idx]
  exact congrArg₂ (fun a b : EReal => a + b) (congrArg v47 (idx111_subsingleton _ _))
    (congrArg₂ (fun a b : EReal => a * b) Ideal.ofBits_one_f32 (sumRow_apply v32 _))

/-- The forward store: the block read before it plus once the sum, over the rows, of the clamped roots of the stored
    minima with the stored squared lengths added back. -/
theorem k0_pay6_apply (v23 v58 : Vec Ideal S4096x1 .f32) (v63 : Vec Ideal S1x1x1 .f32) (y : S1x1x1.Idx) :
    k0_pay6 (F := Ideal) v23 v58 v63 y
      = v63 y + 1 * ∑ n : Fin 4096, Cert.Chamfer.clampRoot (Ideal.ofBits .f32 0x2B8CBCCC#32)
          (v58 (ix2 n (0 : Fin 1)) + v23 (ix2 n (0 : Fin 1))) := by
  unfold k0_pay6
  rw [shapeCast_idx, addf_apply, mulf_apply, broadcast_apply, broadcast_apply, shapeCast_idx, extractAt_eq, shapeCast_idx]
  refine congrArg₂ (fun a b : EReal => a + b) (congrArg v63 (idx111_subsingleton _ _))
    (congrArg₂ (fun a b : EReal => a * b) Ideal.ofBits_one_f32 ((sumCol_apply _ _).trans (Finset.sum_congr rfl fun n _ => ?_)))
  rw [shapeCast_ab_1ab_apply, sqrt_apply, maximumf_apply, addf_apply, broadcast_apply]
  rfl

/-- At the ideal values the block a grid point leaves is, at its one index, the folded loss of the 4096 rows of the
    first block against the 4096 columns of the second. -/
theorem blockOut_apply (x0 : Vec Ideal S1x4096x3 .f32) (x1 : Vec Ideal S1x3x4096 .f32) (y : S1x1x1.Idx) :
    blockOut (F := Ideal) x0 x1 y
      = Cert.Chamfer.foldedLoss (Ideal.ofBits .f32 0x2B8CBCCC#32)
          (fun (n : Fin 4096) (d : Fin 3) => x0 (ValueIdx.ix3 (0 : Fin 1) n d))
          (fun (m : Fin 4096) (d : Fin 3) => x1 (ValueIdx.ix3 (0 : Fin 1) d m)) := by
  unfold blockOut afterBackward
  rw [k0_pay6_apply, k0_pay5_apply, k0_pay2_apply]
  unfold Cert.Chamfer.foldedLoss
  refine congrArg₂ (fun a b : EReal => (0 + 1 * a) + 1 * b)
    (Finset.sum_congr rfl fun m _ => backward_apply x0 x1 0 0 m)
    (Finset.sum_congr rfl fun n _ => ?_)
  rw [rowMinima_apply, predNorms_apply]

end Cert.KernelIdeal.Block

end
-- ==== Proof.KernelArray.lean ====
/-
  From blocks to the array, and on through the host's last operations. Grid point `t` reads batch entry `t` of
  both inputs (the second through the host's transpose: entry (d, k) of its block is coordinate `d` of target point
  `k`) and writes entry `t` of the [4,1,1] result, which therefore ends holding the folded loss of each batch entry;
  the host then sums the four and divides by four.
-/
import proofs.«143097_g31086973289139_cont_9to1_1619_17_alg».proof.Proof.BlockRun
import proofs.«143097_g31086973289139_cont_9to1_1619_17_alg».proof.Proof.BlockIdeal
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Block ValueIdx

variable (m : (ℓ : Loc nD τ sig) → Buf (Elt Ideal) ℓ) (ρ : Dev nD → PrngReg)

/-- The clamp both programs apply under the square root. -/
abbrev eps : EReal := Ideal.ofBits .f32 0x2B8CBCCC#32

/-- The folded loss of batch entry `b` of the two argument arrays. -/
def lossAt (c : Dev nD) (b : Fin 4) : EReal :=
  Cert.Chamfer.foldedLoss eps
    (fun (n : Fin 4096) (d : Fin 3) => m ((c : Thread nD τ).loc main_arg0) (ix3 b n d))
    (fun (k : Fin 4096) (d : Fin 3) => m ((c : Thread nD τ).loc main_arg1) (ix3 b k d))

/-- What the kernel's result array ends holding: entry (b, 0, 0) is the loss of batch entry `b`. -/
def lossArr (c : Dev nD) : Buf (Elt Ideal) ((c : Thread nD τ).loc main_v1) :=
  fun i => lossAt m c ⟨(i 0).val, (i 0).isLt⟩

/-- The batch entry grid point `t` works on. -/
def batchOf (t : Fin cfg0.N) : Fin 4 := ⟨t.val, by have hN : cfg0.N = 4 := N_0; have := t.isLt; omega⟩

/-- The printed index maps, decided over the grid: every window's block index at point `t` is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The host's transpose before the region: the second window's array is the second argument with its last two axes
    exchanged. -/
theorem v0_eq (c : Dev nD) :
    (V m c main_v0 : S4x3x4096.Idx → EReal)
      = transpose S4x3x4096 [0, 2, 1] (m ((c : Thread nD τ).loc main_arg1)) transposes_S4x4096x3_S4x3x4096_0_2_1 := by
  show StableHlo.after hostOps0 (fun b => m (c, b)) (Proc.devRef .tc main_v0) = _
  after_results

/-- Row `n`, coordinate `d` of the first window's block at point `t` is predicted point `n` of batch entry `t`. -/
theorem pblk_apply (c : Dev nD) (t : Fin cfg0.N) (n : Fin 4096) (d : Fin 3) :
    (iblk m c 0 t : Vec Ideal S1x4096x3 .f32) (ix3 (0 : Fin 1) n d)
      = m ((c : Thread nD τ).loc main_arg0) (ix3 (batchOf t) n d) := by
  obtain ⟨e0, e1, e2, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 3 + 1 * d.val = d.val; omega

/-- Row `d`, column `k` of the second window's block at point `t` is coordinate `d` of target point `k` of batch
    entry `t`. -/
theorem tblk_apply (c : Dev nD) (t : Fin cfg0.N) (d : Fin 3) (k : Fin 4096) :
    (iblk m c 1 t : Vec Ideal S1x3x4096 .f32) (ix3 (0 : Fin 1) d k)
      = m ((c : Thread nD τ).loc main_arg1) (ix3 (batchOf t) k d) := by
  obtain ⟨-, -, -, e0, e1, e2, -⟩ := idx_facts t
  unfold iblk
  rw [View.read_apply]
  show V m c main_v0 _ = _
  rw [v0_eq]
  refine (transpose_apply _ _ _ _ (ix3 (batchOf t) k d) (fun b => ?_)).trans rfl
  match b with
  | ⟨0, _⟩ => show t.val = win0_1.index t (0 : Fin 3) * 1 + 1 * 0; omega
  | ⟨1, _⟩ => show d.val = win0_1.index t (1 : Fin 3) * 3 + 1 * d.val; omega
  | ⟨2, _⟩ => show k.val = win0_1.index t (2 : Fin 3) * 4096 + 1 * k.val; omega

/-- WHAT POINT `t` WRITES BACK is block `t` of the array of losses. -/
theorem flushed_eq (c : Dev nD) (t : Fin cfg0.N) :
    (dats m 0 c).flushed 2 t = ((cfg0.win 2).blk t).view.read (Elt Ideal) (lossArr m c) := by
  show (cfg0.win 2).cut (grid0.coords t) ((dats m 0 c).after 2 t) = _
  rw [after0_2]
  unfold outsAt0
  rw [out_eq]
  obtain ⟨-, -, -, -, -, -, e0, e1, e2⟩ := idx_facts t
  funext j
  show blockOut (F := Ideal) (iblk m c 0 t) (iblk m c 1 t) j = lossArr m c (((cfg0.win 2).blk t).view.emb j)
  rw [blockOut_apply]
  unfold lossArr lossAt
  have hb : (⟨((((cfg0.win 2).blk t).view.emb j) 0).val, ((((cfg0.win 2).blk t).view.emb j) 0).isLt⟩ : Fin 4) = batchOf t :=
    Fin.ext (by
      show win0_2.index t (0 : Fin 3) * 1 + 1 * (j 0).val = t.val
      have hj : (j 0).val < 1 := (j 0).isLt
      omega)
  rw [hb]
  congr 1
  · funext n d; exact pblk_apply m c t n d
  · funext k d; exact tblk_apply m c t d k

/-- Every entry of the result array is in some point's block: entry (b, 0, 0) in point `b`'s. -/
theorem cover (c : Dev nD) (i : S4x1x1.Idx) :
    ∃ t : Fin cfg0.N, (cfg0.win 2).flush t = true ∧ i ∈ ((cfg0.win 2).blk t).view.set := by
  have hN : cfg0.N = 4 := N_0
  have h0 : (i 0).val < 4 := (i 0).isLt
  have h1 : (i 1).val < 1 := (i 1).isLt
  have h2 : (i 2).val < 1 := (i 2).isLt
  obtain ⟨t, ht⟩ : ∃ t : Fin cfg0.N, t.val = (i 0).val := ⟨⟨(i 0).val, by omega⟩, rfl⟩
  refine ⟨t, flush0_2 t, ?_⟩
  obtain ⟨-, -, -, -, -, -, e0, e1, e2⟩ := idx_facts t
  show i ∈ ((View.whole main_v1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

/-- THE ARRAY after the region: the losses of the four batch entries. -/
theorem final (c : Dev nD) : (dats m 0 c).arrAt 2 cfg0.N = lossArr m c :=
  (dats m 0 c).arrAt_eq_of_cover 2 (lossArr m c) (fun t _ => flushed_eq m c t) (cover c)

/-- The host's last operations: the sum of the array from zero, divided by four. -/
def meanOf (A : FVec Ideal S4x1x1 .f32) : FVec Ideal S_ .f32 :=
  Host.divf (F := Ideal) (Host.reduceAdd (F := Ideal) A (constant (F := Ideal) S_ .f32 0x00000000#32) reducesTo_S4x1x1_S_d0_1_2 h_S_)
    (constant (F := Ideal) S_ .f32 0x40800000#32)

/-- What the host's operations after the region leave in the result. -/
theorem tail_eq (c : Dev nD) :
    Pipeline.afterTail₀ cfgs (dats m) 0 (V0 m) [hostOps1] c main_v3 = meanOf (lossArr m c) := by
  unfold Pipeline.afterTail₀
  show StableHlo.after hostOps1 _ (Proc.devRef .tc main_v3) = _
  after_results
  rw [(Pipeline.withArrays_arr spec0 launch0.win.arr_inj c _ _ 2).trans (final m c)]
  rfl

/-- THE RUN, READ: the result is the mean of the four losses, the arguments unchanged. -/
theorem run : θ_run defs (onTc (τ := τ) (main (F := Ideal))) ⟨m, fun _ => 0, ρ⟩ fun r => ∀ c : Dev nD,
      r.2.mem ((c : Thread nD τ).loc main_v3) = meanOf (lossArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Arr

end
-- ==== Proof.Finite.lean ====
/-
  The precondition read: when every entry of both inputs has absolute value below +∞, every entry is a real number.
-/
import proofs.«143097_g31086973289139_cont_9to1_1619_17_alg».proof.Pre_finite_inputs
import proofs.«143097_g31086973289139_cont_9to1_1619_17_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

/-- The rank-zero shape has one index: two of them agree at every (absent) axis. -/
instance subsingleton_scalar_idx : Subsingleton S_.Idx := ⟨fun a b => funext fun d => d.elim0⟩

/-- The pattern `0x7F800000` of the 32-bit format denotes `+∞`. -/
theorem ofBits_inf : Ideal.ofBits .f32 0x7F800000#32 = (⊤ : EReal) := by
  simp [Ideal.ofBits, Ideal.ieee]

/-- An extended real whose absolute value `max x (-x)` lies strictly below `+∞` is a real number: at `⊥` and at `⊤`
    the absolute value is `⊤`. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- One entry: when the comparison `|a i| < +∞` of the predicate holds at `i`, the entry `a i` is a real. The
    broadcast of the rank-zero constant is the constant at every index, and the comparison is the order of the
    extended reals. -/
theorem real_of_cmp (a : FVec Ideal S4x4096x3 .f32) (i : S4x4096x3.Idx)
    (hb : S_.BroadcastsInDim S4x4096x3 (![] : Fin 0 → Fin S4x4096x3.rank))
    (e : cmpf (F := Ideal) .olt (Host.absf a) (broadcastInDim S4x4096x3 ![] hb (constant (F := Ideal) S_ .f32 0x7F800000#32)) i
        = 1#1) :
    ∃ r : ℝ, a i = (r : EReal) := by
  have e' : Ideal.cmp .olt (max (a i : EReal) (-(a i : EReal))) (Ideal.ofBits .f32 0x7F800000#32) = 1#1 := e
  rw [ofBits_inf] at e'
  unfold Ideal.cmp at e'
  refine real_of_abs_lt_top (a i) ?_
  by_contra hn
  simp [hn] at e'

/-- The conjunction over all entries: when the reduction of the comparison by `and` over all three axes, from the
    constant one, is one, every entry is a real. -/
theorem real_of_all (a : FVec Ideal S4x4096x3 .f32)
    (hb : S_.BroadcastsInDim S4x4096x3 (![] : Fin 0 → Fin S4x4096x3.rank))
    (hr : S4x4096x3.ReducesTo [0, 1, 2] S_) (hu : 0 < S_.numel)
    (e : Host.reduce IntOp.andi
          (cmpf (F := Ideal) .olt (Host.absf a)
            (broadcastInDim S4x4096x3 ![] hb (constant (F := Ideal) S_ .f32 0x7F800000#32)))
          (constantI S_ 1 1#1) hr hu ValueIdx.ix0 = 1#1)
    (i : S4x4096x3.Idx) : ∃ r : ℝ, a i = (r : EReal) :=
  real_of_cmp a i hb (Host.reduce_andi_all _ _ hr hu ValueIdx.ix0 e i)

/-- If the finiteness predicate of the two input arrays is all ones at the ideal values, every entry of each is (the
    coercion of) a real number. -/
theorem real_of_fn (a0 a1 : FVec Ideal S4x4096x3 .f32)
    (h : Cert.Pre_finite_inputs.fn (F := Ideal) a0 a1 = fun _ => 1#1) :
    (∀ i : S4x4096x3.Idx, ∃ r : ℝ, a0 i = (r : EReal)) ∧ (∀ i : S4x4096x3.Idx, ∃ r : ℝ, a1 i = (r : EReal)) := by
  have h0 := congrFun h ValueIdx.ix0
  unfold Cert.Pre_finite_inputs.fn at h0
  dsimp only at h0
  obtain ⟨e0, e1⟩ := IntOp.andi_eq_one.1 h0
  exact ⟨fun i => real_of_all a0 _ _ _ e0 i, fun i => real_of_all a1 _ _ _ e1 i⟩

end Cert.Finite

end
-- ==== Proof.RefLoss.lean ====
/-
  The reference's per-batch total read at the ideal values: the direct Chamfer loss of the batch entry's points.
-/
import proofs.«143097_g31086973289139_cont_9to1_1619_17_alg».proof.Proof.Gen.ReferenceIdeal.Read
import proofs.«143097_g31086973289139_cont_9to1_1619_17_alg».proof.Proof.ChamferLaw
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.SL.Sem Cert.ReferenceIdeal Cert.ReferenceIdeal.Gen Cert.ReferenceIdeal.Read

/-! ## The constants the reference spells, as extended reals -/

/-- The pattern of `1.0` denotes `1`. -/
private theorem ofBits_one_f32 : Ideal.ofBits .f32 0x3F800000#32 = 1 := by
  simp [Ideal.ofBits, Ideal.ieee, -EReal.coe_mul]; norm_num

/-- The pattern of `2.0` denotes the real `2`. -/
private theorem ofBits_two_f32 : Ideal.ofBits .f32 0x40000000#32 = ((2 : ℝ) : EReal) := by
  simp [Ideal.ofBits, Ideal.ieee, -EReal.coe_mul]; norm_num

/-- The pattern with all exponent bits set, sign and fraction clear, denotes `+∞`. -/
private theorem ofBits_top_f32 : Ideal.ofBits .f32 0x7F800000#32 = ⊤ := by
  simp [Ideal.ofBits, Ideal.ieee]

/-! ## A reduced index with the dropped coordinate put back -/

/-- The pair (b, n) with `k` inserted as the last coordinate is the triple (b, n, k). -/
private theorem lift_last (h : S4x4096x4096.Reduces [2] S4x4096) (b : Fin 4) (n : Fin 4096)
    (k : Fin (S4x4096x4096.size 2)) :
    h.lift (ValueIdx.ix2 b n) k = ValueIdx.ix3 b n (⟨k.val, k.isLt⟩ : Fin 4096) := by
  funext c; apply Fin.ext
  fin_cases c <;> rfl

/-- The pair (b, m) with `k` inserted as the middle coordinate is the triple (b, k, m). -/
private theorem lift_middle (h : S4x4096x4096.Reduces [1] S4x4096) (b : Fin 4) (m : Fin 4096)
    (k : Fin (S4x4096x4096.size 1)) :
    h.lift (ValueIdx.ix2 b m) k = ValueIdx.ix3 b (⟨k.val, k.isLt⟩ : Fin 4096) m := by
  funext c; apply Fin.ext
  fin_cases c <;> rfl

/-! ## The table of distances -/

/-- The entry (b, n, m) of the table of distances: the square root of |p_n|² + |t_m|² − 2 ⟨p_n, t_m⟩ clamped from below
    at ε, for the n-th predicted and the m-th target point of batch entry `b`; the two squared lengths are sums over the
    three coordinates started from zero, and the inner product is doubled after it is summed. -/
private theorem dist_entry (x0 x1 : (⟨S4x4096x3, .f32⟩ : BufTy).Contents (Elt Ideal)) (b : Fin 4) (n m : Fin 4096) :
    val_main_v15 (F := Ideal) x0 x1 (ValueIdx.ix3 b n m)
      = Cert.Chamfer.dist (Ideal.ofBits .f32 0x2B8CBCCC#32) (fun d => x0 (ValueIdx.ix3 b n d))
          (fun d => x1 (ValueIdx.ix3 b m d)) := by
  rw [val_main_v15_apply, val_main_v14_apply, val_main_v13_apply, val_main_cst_2_apply, val_main_v12_apply,
    val_main_v8_apply, val_main_v11_apply, val_main_v10_apply, val_main_cst_1_apply, val_main_v6_apply,
    val_main_v4_apply, val_main_v1_apply, val_main_v7_apply, val_main_v5_apply, val_main_v3_apply,
    val_main_v9_apply, val_main_cst_apply, val_main_cst_0_apply]
  -- the broadcasts read |p_n|² at (b, n) and |t_m|² at (b, m); the contraction pairs coordinate k of p_n with that of t_m
  have e1 : ∀ k : Fin 3, idx_main_v1 (idx_main_v4 (idx_main_v6 (ValueIdx.ix3 b n m))) k = ValueIdx.ix3 b n k := fun k =>
    funext fun a => Fin.ext (by match a with | ⟨0, _⟩ => rfl | ⟨1, _⟩ => rfl | ⟨2, _⟩ => rfl)
  have e2 : ∀ k : Fin 3, idx_main_v3 (idx_main_v5 (idx_main_v7 (ValueIdx.ix3 b n m))) k = ValueIdx.ix3 b m k := fun k =>
    funext fun a => Fin.ext (by match a with | ⟨0, _⟩ => rfl | ⟨1, _⟩ => rfl | ⟨2, _⟩ => rfl)
  have e3 : ∀ k : Fin 3, lidx_main_v9 (ValueIdx.ix3 b n m) k = ValueIdx.ix3 b n k := fun k =>
    funext fun a => Fin.ext (by match a with | ⟨0, _⟩ => rfl | ⟨1, _⟩ => rfl | ⟨2, _⟩ => rfl)
  have e4 : ∀ k : Fin 3, ridx_main_v9 (ValueIdx.ix3 b n m) k = ValueIdx.ix3 b m k := fun k =>
    funext fun a => Fin.ext (by match a with | ⟨0, _⟩ => rfl | ⟨1, _⟩ => rfl | ⟨2, _⟩ => rfl)
  simp only [e1, e2, e3, e4, val_main_v0_apply, val_main_v2_apply, Ideal.hostUnary_sqrt_def, Ideal.maximumf_def,
    Ideal.subf_def, Ideal.addf_def, Ideal.mulf_def, Ideal.ofBits_def, Ideal.ofBits_zero_f32, ofBits_two_f32]
  rfl

/-! ## The two minima -/

/-- Reducing the table by a minimum over its last axis from +∞ gives, at (b, n), the least distance from the n-th
    predicted point to a target point. -/
private theorem minOverTargets (x0 x1 : (⟨S4x4096x3, .f32⟩ : BufTy).Contents (Elt Ideal)) (b : Fin 4) (n : Fin 4096) :
    val_main_v16 (F := Ideal) x0 x1 (ValueIdx.ix2 b n)
      = Cert.Chamfer.minOver (fun m : Fin 4096 => val_main_v15 (F := Ideal) x0 x1 (ValueIdx.ix3 b n m)) := by
  unfold val_main_v16
  have h : S4x4096x4096.Reduces [2] S4x4096 := by decide
  rw [Host.reduce_eq_fold_single FloatOps.minimumf _ _ reducesTo_S4x4096x4096_S4x4096_d2 h h_S_]
  have hf : (val_main_v15 (F := Ideal) x0 x1 ∘ h.lift (ValueIdx.ix2 b n))
      = fun m : Fin 4096 => val_main_v15 (F := Ideal) x0 x1 (ValueIdx.ix3 b n m) :=
    funext fun k => congrArg (val_main_v15 (F := Ideal) x0 x1) (lift_last h b n k)
  rw [hf, val_main_cst_3_apply, Ideal.ofBits_def, ofBits_top_f32]
  rfl

/-- Reducing the table by a minimum over its middle axis from +∞ gives, at (b, m), the least distance from a
    predicted point to the m-th target point. -/
private theorem minOverPredicted (x0 x1 : (⟨S4x4096x3, .f32⟩ : BufTy).Contents (Elt Ideal)) (b : Fin 4) (m : Fin 4096) :
    val_main_v17 (F := Ideal) x0 x1 (ValueIdx.ix2 b m)
      = Cert.Chamfer.minOver (fun n : Fin 4096 => val_main_v15 (F := Ideal) x0 x1 (ValueIdx.ix3 b n m)) := by
  unfold val_main_v17
  have h : S4x4096x4096.Reduces [1] S4x4096 := by decide
  rw [Host.reduce_eq_fold_single FloatOps.minimumf _ _ reducesTo_S4x4096x4096_S4x4096_d1 h h_S_]
  have hf : (val_main_v15 (F := Ideal) x0 x1 ∘ h.lift (ValueIdx.ix2 b m))
      = fun n : Fin 4096 => val_main_v15 (F := Ideal) x0 x1 (ValueIdx.ix3 b n m) :=
    funext fun k => congrArg (val_main_v15 (F := Ideal) x0 x1) (lift_middle h b m k)
  rw [hf, val_main_cst_4_apply, Ideal.ofBits_def, ofBits_top_f32]
  rfl

/-! ## The per-batch total -/

/-- At the ideal values the reference's sum of the two directed losses of batch entry `b` is the direct loss of
    that entry's 4096 predicted points against its 4096 target points. -/
theorem batchLoss_apply (x0 x1 : (⟨S4x4096x3, .f32⟩ : BufTy).Contents (Elt Ideal)) (b : Fin 4) :
    val_main_v24 (F := Ideal) x0 x1 (ValueIdx.ix1 b)
      = Cert.Chamfer.directLoss (Ideal.ofBits .f32 0x2B8CBCCC#32)
          (fun (n : Fin 4096) (d : Fin 3) => x0 (ValueIdx.ix3 b n d))
          (fun (m : Fin 4096) (d : Fin 3) => x1 (ValueIdx.ix3 b m d)) := by
  -- the total is 1 · (0 + Σ_n of the first minima) + 1 · (0 + Σ_m of the second minima)
  rw [val_main_v24_apply, val_main_v20_apply, val_main_v23_apply, val_main_v19_apply, val_main_v22_apply,
    val_main_cst_6_apply, val_main_cst_8_apply, val_main_v18_apply, val_main_v21_apply, val_main_cst_5_apply,
    val_main_cst_7_apply]
  have e18 : ∀ k : Fin 4096, idx_main_v18 (ValueIdx.ix1 b) k = ValueIdx.ix2 b k := fun k =>
    funext fun a => Fin.ext (by match a with | ⟨0, _⟩ => rfl | ⟨1, _⟩ => rfl)
  have e21 : ∀ k : Fin 4096, idx_main_v21 (ValueIdx.ix1 b) k = ValueIdx.ix2 b k := fun k =>
    funext fun a => Fin.ext (by match a with | ⟨0, _⟩ => rfl | ⟨1, _⟩ => rfl)
  simp only [e18, e21, minOverTargets, minOverPredicted, dist_entry, Ideal.addf_def, Ideal.mulf_def, Ideal.ofBits_def,
    Ideal.ofBits_zero_f32, ofBits_one_f32]
  rfl

end Cert.ReferenceIdeal.RefValue

end
-- ==== Proof.Bridge.lean ====
/-
  The two results are one number. The kernel's program ends at the mean over the four batch entries of the folded loss;
  the reference at the mean of the direct loss; on real inputs the two losses agree entry by entry.
-/
import proofs.«143097_g31086973289139_cont_9to1_1619_17_alg».proof.Proof.KernelArray
import proofs.«143097_g31086973289139_cont_9to1_1619_17_alg».proof.Proof.RefLoss
import proofs.«143097_g31086973289139_cont_9to1_1619_17_alg».proof.Proof.ChamferLaw
import Idealize.ShloMosaic.Lib.ValueIdx
import Idealize.ShloMosaic.PureOps.Ideal.Laws

noncomputable section

open Idealize.ShloMosaic Idealize.ShloMosaic.TcCoe Idealize.SL.Sem

namespace Cert.Bridge

open ValueIdx

/-- A sum over the indices of a vector of four entries is the sum over its four positions. -/
theorem sum_idx4 (f : (⟨1, ![4]⟩ : Shape).Idx → EReal) : ∑ j, f j = ∑ b : Fin 4, f (ix1 b) :=
  Fintype.sum_equiv
    ⟨fun j => (⟨(j 0).val, (j 0).isLt⟩ : Fin 4), fun b => ix1 b,
      fun j => funext fun a => by match a with | ⟨0, _⟩ => rfl,
      fun b => rfl⟩ _ _
    (fun j => congrArg f (funext fun a => by match a with | ⟨0, _⟩ => rfl))

/-- A sum over the indices of a [4,1,1] array is the sum over its four leading positions. -/
theorem sum_idx411 (f : (⟨3, ![4, 1, 1]⟩ : Shape).Idx → EReal) : ∑ i, f i = ∑ b : Fin 4, f (ix3 b (0 : Fin 1) (0 : Fin 1)) :=
  Fintype.sum_equiv
    ⟨fun i => (⟨(i 0).val, (i 0).isLt⟩ : Fin 4), fun b => ix3 b (0 : Fin 1) (0 : Fin 1),
      fun i => funext fun a => Fin.ext (by
        have h1 : (i 1).val < 1 := (i 1).isLt
        have h2 : (i 2).val < 1 := (i 2).isLt
        match a with
        | ⟨0, _⟩ => rfl
        | ⟨1, _⟩ => show 0 = (i 1).val; omega
        | ⟨2, _⟩ => show 0 = (i 2).val; omega),
      fun b => rfl⟩ _ _
    (fun i => congrArg f (funext fun a => Fin.ext (by
        have h1 : (i 1).val < 1 := (i 1).isLt
        have h2 : (i 2).val < 1 := (i 2).isLt
        match a with
        | ⟨0, _⟩ => rfl
        | ⟨1, _⟩ => show (i 1).val = 0; omega
        | ⟨2, _⟩ => show (i 2).val = 0; omega)))

/-- The mean read at its one index: zero plus the sum of the array's entries, divided by four. -/
theorem meanOf_apply (A : FVec Ideal Cert.KernelIdeal.S4x1x1 .f32) (i : Cert.KernelIdeal.S_.Idx) :
    Cert.KernelIdeal.Arr.meanOf A i
      = FloatOps.hostDivf (F := Ideal) (φ := .f32)
          (Ideal.ofBits .f32 0x00000000#32 + ∑ j : Cert.KernelIdeal.S4x1x1.Idx, A j) (Ideal.ofBits .f32 0x40800000#32) := by
  unfold Cert.KernelIdeal.Arr.meanOf
  simp only [Host.divf, Host.reduceAdd, Ideal.hostReduceAdd_def]
  rw [Ideal.hostReduceAdd_total Cert.KernelIdeal.Gen.reducesTo_S4x1x1_S_d0_1_2 (fun b => b.elim0)]
  rfl

/-- On real inputs the reference's result is the kernel program's: the mean of the four batch entries' losses. -/
theorem result_eq (m : (ℓ : Loc Cert.KernelIdeal.nD Cert.KernelIdeal.τ Cert.KernelIdeal.sig) → Buf (Elt Ideal) ℓ)
    (c : Dev Cert.KernelIdeal.nD)
    (h0 : ∀ i, ∃ r : ℝ, m ((c.tc : Thread Cert.KernelIdeal.nD Cert.KernelIdeal.τ).loc Cert.KernelIdeal.main_arg0) i = (r : EReal))
    (h1 : ∀ i, ∃ r : ℝ, m ((c.tc : Thread Cert.KernelIdeal.nD Cert.KernelIdeal.τ).loc Cert.KernelIdeal.main_arg1) i = (r : EReal)) :
    Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Arr.meanOf (Cert.KernelIdeal.Arr.lossArr m c) := by
  funext i
  rw [meanOf_apply, Cert.ReferenceIdeal.Read.val_main_v26_apply, Cert.ReferenceIdeal.Read.val_main_v25_apply,
    Cert.ReferenceIdeal.Read.val_main_cst_9_apply, Cert.ReferenceIdeal.Read.val_main_cst_10_apply, sum_idx4, sum_idx411]
  refine congrArg₂ (FloatOps.hostDivf (F := Ideal) (φ := .f32)) (congrArg (Ideal.ofBits .f32 0x00000000#32 + ·) ?_) rfl
  refine Finset.sum_congr rfl fun b _ => ?_
  rw [Cert.ReferenceIdeal.RefValue.batchLoss_apply]
  exact (Cert.Chamfer.foldedLoss_eq_directLoss _ _ _ (fun n d => h0 _) (fun k d => h1 _)).symm

end Cert.Bridge

end
-- ==== Proof.lean ====
/-
  The certificate of the fused Chamfer-distance kernel against its jnp reference, over the extended reals.

  Both programs compute, for each of four batch entries, the sum over predicted points of the distance to the nearest
  target point plus the sum over target points of the distance to the nearest predicted point, and return the mean of
  the four. The reference forms every distance √(max(|p|² + |t|² − 2⟨p, t⟩, ε)) and then takes minima; the kernel takes
  the minima of |p|² − ⟨2p, t⟩ (resp. |t|² − ⟨2p, t⟩) first, adds the other squared length, and only then clamps and takes
  the root. On real inputs these agree (`Cert.Chamfer.foldedLoss_eq_directLoss`): the clamp-and-root is monotone and
  adding a real constant commutes with a minimum. The precondition makes every input entry real (`Cert.Finite`).

  The kernel program's value is read off its frame run (one grid point per batch entry, each leaving one entry of
  the [4,1,1] result: `Cert.KernelIdeal.Arr`), the reference's off its run, operation by operation
  (`Cert.ReferenceIdeal.RefValue`); `Cert.Bridge.result_eq` joins the two. The ideal pass rewrote nothing, so the
  preservation claim is trivial.
-/
import proofs.«143097_g31086973289139_cont_9to1_1619_17_alg».proof.Defs
import proofs.«143097_g31086973289139_cont_9to1_1619_17_alg».proof.Proof.Gen.Kernel
import proofs.«143097_g31086973289139_cont_9to1_1619_17_alg».proof.Proof.Gen.Kernel.Skeleton
import proofs.«143097_g31086973289139_cont_9to1_1619_17_alg».proof.Proof.Gen.Kernel.Launch
import proofs.«143097_g31086973289139_cont_9to1_1619_17_alg».proof.Proof.Gen.Kernel.Points
import proofs.«143097_g31086973289139_cont_9to1_1619_17_alg».proof.Proof.Gen.Kernel.Frame
import proofs.«143097_g31086973289139_cont_9to1_1619_17_alg».proof.Proof.Gen.KernelIdeal
import proofs.«143097_g31086973289139_cont_9to1_1619_17_alg».proof.Proof.Gen.KernelIdeal.Skeleton
import proofs.«143097_g31086973289139_cont_9to1_1619_17_alg».proof.Proof.Gen.KernelIdeal.Launch
import proofs.«143097_g31086973289139_cont_9to1_1619_17_alg».proof.Proof.Gen.KernelIdeal.Points
import proofs.«143097_g31086973289139_cont_9to1_1619_17_alg».proof.Proof.Gen.KernelIdeal.Frame
import proofs.«143097_g31086973289139_cont_9to1_1619_17_alg».proof.Proof.Gen.ReferenceIdeal
import proofs.«143097_g31086973289139_cont_9to1_1619_17_alg».proof.Proof.Gen.ReferenceIdeal.Run
import proofs.«143097_g31086973289139_cont_9to1_1619_17_alg».proof.Proof.Gen.ReferenceIdeal.Read
import proofs.«143097_g31086973289139_cont_9to1_1619_17_alg».proof.Proof.Gen.Pre_finite_inputs
import proofs.«143097_g31086973289139_cont_9to1_1619_17_alg».proof.Proof.KernelArray
import proofs.«143097_g31086973289139_cont_9to1_1619_17_alg».proof.Proof.Finite
import proofs.«143097_g31086973289139_cont_9to1_1619_17_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on real inputs both programs end at the mean of the four batch entries' Chamfer losses. -/
theorem algebraic : Cert.algebraic_KernelIdeal_ReferenceIdeal := by
  intro m ρ m' ρ' hpre hagree
  refine ⟨fun c => Cert.KernelIdeal.Arr.meanOf (Cert.KernelIdeal.Arr.lossArr m c), Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  obtain ⟨h0, h1⟩ := Cert.Finite.real_of_fn _ _ (hpre c)
  exact Cert.Bridge.result_eq m c h0 h1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
